-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S1024x1024 : Shape := ⟨2, ![1024, 1024]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x1024 .f32) (main_arg5 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8x2048x4096 .f32) (main_arg1 : FVec F S1024x1024 .f32) (main_arg2 : FVec F S1024x1024 .f32) (main_arg3 : FVec F S1024x1024 .f32) (main_arg4 : FVec F S1024x1024 .f32) (main_arg5 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x4096 : Shape := ⟨3, ![8, 2048, 4096]⟩
abbrev S1024x1024 : Shape := ⟨2, ![1024, 1024]⟩
abbrev S4096 : Shape := ⟨1, ![4096]⟩
abbrev S4096x1024 : Shape := ⟨2, ![4096, 1024]⟩
abbrev S4096x4096 : Shape := ⟨2, ![4096, 4096]⟩
abbrev S16384x4096 : Shape := ⟨2, ![16384, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x1024_S4096x1024_S4096x4096_d1 : Shape.Concatenates [S4096x1024, S4096x1024, S4096x1024, S4096x1024] S4096x4096 1
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S1024x1024 : Shape := ⟨2, ![1024, 1024]⟩
abbrev S4096 : Shape := ⟨1, ![4096]⟩
abbrev S4096x1024 : Shape := ⟨2, ![4096, 1024]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x1024_S4096x1024_S4096x4096_d1 : Shape.Concatenates [S4096x1024, S4096x1024, S4096x1024, S4096x1024] S4096x4096 1
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_0_01_1_n_n_wf : DotDims.WF S8x2048x4096 S4096x4096 S8x2048x4096 [2] [0] [0, 1] [1] [] []

variable [Facts₀]

def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf

class Facts : Prop extends Facts₀ where

variable [Facts]
-- ==== Proof.Kernel.Around.lean ====
/-
  @main of the program is: thirteen host lines (three negations and five joins that assemble the
  4096 x 4096 block matrix W out of the four 1024 x 1024 parameter blocks, and two reshapes, of x to
  16384 x 4096 and of the bias to a row), the one kernel region, and one host line (the reshape of the
  region's result back to 8 x 2048 x 4096). This module holds what is said about those lines and about
  the region's schedule, before anything is said about the kernel body:
  * the contents the region finds in every buffer (the host lines' fold over the launch memory), and that
    no host line before the region writes an argument;
  * that the line after the region touches only buffers it may, allocates nothing and writes no array the
    region stages;
  * the block of each window at a grid point, and that an input window's staging buffer holds that block
    at every point, fetched there or not;
  * the two conditions of the body in closed form over the grid's 512 points, numbered row-major over
    (i, j, k) with k fastest: "k = 0" is "t % 8 = 0" and "k = 7" is "t % 8 = 7"; the output window is
    idle, and not written back, exactly where k is not 7;
  * the frame claim's post read off the launch theorem's post.
-/
import proofs.«164658_j64347200028815_1_alg».proof.Proof.Gen.Kernel.Launch
import proofs.«164658_j64347200028815_1_alg».proof.Proof.Gen.Kernel.Skeleton
import proofs.«164658_j64347200028815_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the thirteen host lines folded over the launch memory. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, the last host line: it reduces to the region continued by that line,
    the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches arrays of the pipeline and buffers that bypass it, nothing else. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes reference `b`, when `b` is none of the fifteen result buffers. -/
theorem V_keeps (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12) :
    V m c b = m ((c : Thread nD τ).loc b) := by
  obtain ⟨h0, h1, h2, h3, h4, h5, h6, h7, h8, h9, h10, h11, h12⟩ := hb
  refine StableHlo.after_of_forall_not_mem (b := Proc.devRef .tc b) _ _ (List.forall_iff_forall_mem.mp ?_)
  simp only [hostOps0, List.flatten_cons, List.flatten_nil, List.append_nil, List.Forall, StableHlo.unary_writes,
    StableHlo.nary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12⟩

theorem V_main_arg0 (c : Dev nD) : V m c main_arg0 = m ((c : Thread nD τ).loc main_arg0) := V_keeps m c _ (by decide)
theorem V_main_arg1 (c : Dev nD) : V m c main_arg1 = m ((c : Thread nD τ).loc main_arg1) := V_keeps m c _ (by decide)
theorem V_main_arg2 (c : Dev nD) : V m c main_arg2 = m ((c : Thread nD τ).loc main_arg2) := V_keeps m c _ (by decide)
theorem V_main_arg3 (c : Dev nD) : V m c main_arg3 = m ((c : Thread nD τ).loc main_arg3) := V_keeps m c _ (by decide)
theorem V_main_arg4 (c : Dev nD) : V m c main_arg4 = m ((c : Thread nD τ).loc main_arg4) := V_keeps m c _ (by decide)
theorem V_main_arg5 (c : Dev nD) : V m c main_arg5 = m ((c : Thread nD τ).loc main_arg5) := V_keeps m c _ (by decide)

/-- A buffer that is no array of the pipeline and is not the last line's result holds, after that line, what the
    region found in it. -/
theorem tail_keeps (dats : (p : Fin 1) → (c : Dev nD) → Dat τ (Elt F) Unit ℕ (UR sig nD τ) ℕ (cfgs p) c) (c : Dev nD) (b : Ref sig .tc)
    (harr : ∀ w, Pipeline.arrRef spec0 w ≠ b) (hb : b ≠ main_v14) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))]
  exact Pipeline.withArrays_of_ne _ c (V0 m c) _ b harr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the block index has not moved; no input window is clipped or ever idle), for any proof data over the
    region-entry arrays whose body leaves the inputs in place. One statement per input window. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first step along k": the condition under which the accumulator is reset. -/
abbrev isFirst (i : grid0.Coords) : Prop := (Scalar.cmpi .ne (Scalar.extui (Scalar.cmpi .eq (BitVec.ofNat 32 (i 2).val) 0#32)) 0#32) = 1#1
/-- "This is the last step along k": the condition under which the output block is stored. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The three input windows are never idle; -/
theorem live_in : ∀ (w : Fin cfg0.W), w ≠ 3 → ∀ i, cfg0.idle w i = false := by
  intro w hw i; fin_cases w <;> first | rfl | exact absurd rfl hw
/-- the output window is idle where k is not 7, and is not written back there; it is live where k = 7. -/
theorem idle_out : ∀ t : Fin cfg0.N, ¬ t.val % 8 = 7 → cfg0.idle 3 (grid0.coords t) = true := by decide +kernel
theorem noFlush_out : ∀ t : Fin cfg0.N, ¬ t.val % 8 = 7 → (cfg0.win 3).flush t = false := by decide +kernel
theorem live_out : ∀ t : Fin cfg0.N, t.val % 8 = 7 → cfg0.idle 3 (grid0.coords t) = false := by decide +kernel

/-! ## The staging memrefs and the scratch -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own, passed beside the windows. -/
abbrev accM : Memref sig .tc .vmem S1024x1024 .f32 := Memref.whole cc0_scratch0

/-- The region's default invariant, spelled out: the accumulator owned at some contents, and the generator register
    at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; rfl

/-! ## The frame claim's post from the launch theorem's -/

/-- Each argument is no array of the pipeline and is not written by any host line: in a final state that satisfies the
    launch theorem's post it holds what it was launched with. -/
theorem post_args (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans ((tail_keeps m dats c _ (by decide) (by decide)).trans (V_main_arg0 m c)),
   ((h c).2 main_arg1 (Pipeline.mem_restRefs_of main_arg1 (by decide) (by decide))).trans ((tail_keeps m dats c _ (by decide) (by decide)).trans (V_main_arg1 m c)),
   ((h c).2 main_arg2 (Pipeline.mem_restRefs_of main_arg2 (by decide) (by decide))).trans ((tail_keeps m dats c _ (by decide) (by decide)).trans (V_main_arg2 m c)),
   ((h c).2 main_arg3 (Pipeline.mem_restRefs_of main_arg3 (by decide) (by decide))).trans ((tail_keeps m dats c _ (by decide) (by decide)).trans (V_main_arg3 m c)),
   ((h c).2 main_arg4 (Pipeline.mem_restRefs_of main_arg4 (by decide) (by decide))).trans ((tail_keeps m dats c _ (by decide) (by decide)).trans (V_main_arg4 m c)),
   ((h c).2 main_arg5 (Pipeline.mem_restRefs_of main_arg5 (by decide) (by decide))).trans ((tail_keeps m dats c _ (by decide) (by decide)).trans (V_main_arg5 m c))⟩

/-- The frame claim's post from a run to the launch theorem's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => post_args m dats r h c) h

end Cert.Kernel.Fr

end
-- ==== Proof.Kernel.Body.lean ====
/-
  The kernel body at one grid point, as three Hoare triples, one for each way its two conditions fall on the
  grid (k = 0; 0 < k < 7; k = 7 — k = 0 and k = 7 never coincide on a grid of 8 steps).

  The body: if k = 0, store zeros over the whole accumulator; load the x block, the W block and the accumulator;
  store (accumulator + x block . W block) over the whole accumulator; if k = 7, load the accumulator and the bias row
  and store (accumulator + bias row broadcast down the rows) over the whole output block.

  Every store is through the rectangle that is the whole buffer, so what a buffer holds afterwards is the payload of
  the last store into it, whatever it held before; and a load of the accumulator after a store into it reads that
  store's payload. Hence, with x, w, b the input buffers' contents and s the accumulator's on entry:
    k = 0      : accumulator := step x w zero                              (output buffer untouched)
    0 < k < 7  : accumulator := step x w s                                 (output buffer untouched)
    k = 7      : accumulator := step x w s;  output := withBias (step x w s) b
  where step, zero, withBias are the program's own pure payload terms. The inputs are left as found.
-/
import proofs.«164658_j64347200028815_1_alg».proof.Proof.Kernel.Around
import Idealize.ShloMosaic.Lib.Pipeline.Value
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every rectangle the body uses is the origin. -/
theorem origin2 : (![0, 0] : Fin 2 → Nat) = fun _ => 0 := funext fun a => by fin_cases a <;> rfl

/-- A store through the rectangle that is the whole buffer, coming last, leaves its payload: whatever the earlier
    stores and the prior contents were. -/
theorem read_writes_whole_last {S : Shape} {e : EltTy} {κ : Kind} {sp : Space} (v : View sig κ sp S e) (f : v.ty.Contents (Elt F))
    {off : Fin S.rank → Nat} (hz : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P := by
  subst hz
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- k = 0: the accumulator is reset and then holds the first partial product; the output buffer is not touched. -/
theorem run_first (c : Dev nD) (i : grid0.Coords)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : isFirst i) (hc1 : ¬isLast i)
    (x : Vec F S1024x512 .f32) (w : Vec F S512x1024 .f32) (b : Vec F S1x1024 .f32) (o : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k0_pay2 x w (k0_pay1 (F := F)))) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [read_writes_whole_last _ _ origin2]
  simp only [View.readAt_eq_ld, harg3.read_unread, harg4.read_unread, View.ld_unit_zero (S := S1024x512) origin2,
    View.ld_unit_zero (S := S512x1024) origin2, View.readCov_unit_zero (S := S1024x1024) _ origin2]

set_option maxHeartbeats 1000000 in
/-- 0 < k < 7: one more partial product is added into the accumulator; the output buffer is not touched. -/
theorem run_mid (c : Dev nD) (i : grid0.Coords)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : ¬isLast i)
    (x : Vec F S1024x512 .f32) (w : Vec F S512x1024 .f32) (b : Vec F S1x1024 .f32) (o : Vec F S1024x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k0_pay2 x w s)) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6
  obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [read_writes_whole_last _ _ origin2]
  simp only [View.readAt_eq_ld, harg3.read_unread, harg4.read_unread, harg7.read_unread, View.ld_unit_zero (S := S1024x512) origin2,
    View.ld_unit_zero (S := S512x1024) origin2, View.ld_unit_zero (S := S1024x1024) origin2]

set_option maxHeartbeats 1000000 in
/-- k = 7: the last partial product is added, and the output block is the accumulator plus the bias row. -/
theorem run_last (c : Dev nD) (i : grid0.Coords)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : isLast i)
    (x : Vec F S1024x512 .f32) (w : Vec F S512x1024 .f32) (b : Vec F S1x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b) ∗ owns (c : Thread nD τ) arg7 fullShare (k0_pay2 x w s)) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_whole_last _ _ origin2]
    simp only [View.readAt_eq_ld, harg3.read_unread, harg4.read_unread, harg5.read_unread, harg7.read_unread,
      View.ld_unit_zero (S := S1024x512) origin2, View.ld_unit_zero (S := S512x1024) origin2, View.ld_unit_zero (S := S1024x1024) origin2,
      View.ld_unit_zero (S := S1x1024) origin2, View.readCov_unit_zero (S := S1024x1024) _ origin2]
  iexists _; isplitr
  swap; · iexact H7
  ipureintro
  sl_unfold_run_names
  rw [read_writes_whole_last _ _ origin2]
  simp only [View.readAt_eq_ld, harg3.read_unread, harg4.read_unread, harg7.read_unread, View.ld_unit_zero (S := S1024x512) origin2,
    View.ld_unit_zero (S := S512x1024) origin2, View.ld_unit_zero (S := S1024x1024) origin2]

end Cert.Kernel.Fr

end
-- ==== Proof.Kernel.Frame.lean ====
/-
  The frame of the program: it runs to the end on every weakly fair schedule, faults nowhere, and leaves its six
  arguments as launched.

  The grid has 512 points, (i, j, k) in 16 x 4 x 8 with k fastest, so point t has k = t % 8. The accumulator is
  carried from one point to the next: after point t it holds
      step (x block at t) (W block at t) zero                      if t % 8 = 0,
      step (x block at t) (W block at t) (what point t - 1 left)   otherwise,
  where step and zero are the program's own payload terms (one partial product added in; the all-zero block). The
  region invariant before a point other than the first names exactly that: the accumulator owned at what the point
  before left. Before the first point, and after the last, it is the default one (the accumulator at anything).
  The output window's staging buffer is stored only where t % 8 = 7, with (accumulator + bias row); elsewhere it
  is idle and not written back, and the body hands it back as found.

  The body obligation at a point is then one of the three triples of the body, chosen by t % 8; the launch is the
  library's for one region with host lines around it and a carried scratch.
-/
import proofs.«164658_j64347200028815_1_alg».proof.Proof.Kernel.Body
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point, at their literal types -/

abbrev xblk (c : Dev nD) (t : Fin cfg0.N) : Vec F S1024x512 .f32 := iblk m c 0 t
abbrev wblk (c : Dev nD) (t : Fin cfg0.N) : Vec F S512x1024 .f32 := iblk m c 1 t
abbrev bblk (c : Dev nD) (t : Fin cfg0.N) : Vec F S1x1024 .f32 := iblk m c 2 t

/-! ## The accumulator, point by point -/

/-- What the accumulator holds after the body at position `n`. -/
def accAt (c : Dev nD) : (n : ℕ) → n < cfg0.N → Vec F S1024x1024 .f32
  | 0, hn => k0_pay2 (xblk m c ⟨0, hn⟩) (wblk m c ⟨0, hn⟩) (k0_pay1 (F := F))
  | n + 1, hn =>
    if (n + 1) % 8 = 0 then k0_pay2 (xblk m c ⟨n + 1, hn⟩) (wblk m c ⟨n + 1, hn⟩) (k0_pay1 (F := F))
    else k0_pay2 (xblk m c ⟨n + 1, hn⟩) (wblk m c ⟨n + 1, hn⟩) (accAt c n (Nat.lt_of_succ_lt hn))

/-- At a first step along k the accumulator restarts from zero. -/
theorem accAt_first (c : Dev nD) (t : Fin cfg0.N) (h0 : t.val % 8 = 0) :
    accAt m c t.val t.isLt = k0_pay2 (xblk m c t) (wblk m c t) (k0_pay1 (F := F)) := by
  obtain ⟨n, hn⟩ := t
  cases n with
  | zero => rfl
  | succ n => exact if_pos h0

/-- At a later step it adds into what the point before left. -/
theorem accAt_next (c : Dev nD) (t : Fin cfg0.N) (h0 : ¬t.val % 8 = 0) :
    accAt m c t.val t.isLt = k0_pay2 (xblk m c t) (wblk m c t) (accAt m c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer is stored with at a point (consulted only where t % 8 = 7). -/
def outAt (c : Dev nD) (t : Fin cfg0.N) : Vec F S1024x1024 .f32 := k0_pay3 (accAt m c t.val t.isLt) (bblk m c t)

/-! ## The region invariant -/

/-- Before position `n`: the default invariant before the first point; afterwards the accumulator at what the point
    before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- On core `c`: the arrays as the region finds them; after the body each input's buffer still at its block, the
    output's at `outAt`; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) : (dats m 0 c).after 3 t = outAt m c t := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An input window is live everywhere, so the body must leave it exactly at `after`. -/
theorem leaves_x (c : Dev nD) (t : Fin cfg0.N) :
    (dats m 0 c).leavesExact 0 t = owns (c : Thread nD τ) (ms0 t) fullShare (iblk m c 0 t) := by
  unfold Dat.leavesExact; rw [live_in 0 (by decide) (grid0.coords t), after_x]
theorem leaves_w (c : Dev nD) (t : Fin cfg0.N) :
    (dats m 0 c).leavesExact 1 t = owns (c : Thread nD τ) (ms1 t) fullShare (iblk m c 1 t) := by
  unfold Dat.leavesExact; rw [live_in 1 (by decide) (grid0.coords t), after_w]
theorem leaves_b (c : Dev nD) (t : Fin cfg0.N) :
    (dats m 0 c).leavesExact 2 t = owns (c : Thread nD τ) (ms2 t) fullShare (iblk m c 2 t) := by
  unfold Dat.leavesExact; rw [live_in 2 (by decide) (grid0.coords t), after_b]
theorem leaves_out (c : Dev nD) (t : Fin cfg0.N) (h1 : t.val % 8 = 7) :
    (dats m 0 c).leavesExact 3 t = owns (c : Thread nD τ) (ms3 t) fullShare (outAt m c t) := by
  unfold Dat.leavesExact; rw [live_out t h1, after_out]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).owesAt () t.succ = (dats m 0 c).owesAt () t.castSucc from rfl]
  rw [show (dats m 0 c).Φ t.succ = PhiS m c (t.val + 1) t.isLt from rfl, PhiS_succ]
  rw [leaves_x, leaves_w, leaves_b]
  by_cases h0 : t.val % 8 = 0
  · have h1 : ¬t.val % 8 = 7 := by omega
    rw [Dat.leavesExact_idle (dats m 0 c) 3 t (idle_out t h1) (noFlush_out t h1)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) accM (Memref.isWhole_whole _)
        ((isFirst_iff t).mpr h0) (fun h => h1 ((isLast_iff t).mp h)) (xblk m c t) (wblk m c t) (bblk m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) accM (Memref.isWhole_whole _)
        ((isFirst_iff t).mpr h0) (fun h => h1 ((isLast_iff t).mp h)) (xblk m c t) (wblk m c t) (bblk m c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next m c t h0]
    rw [PhiS_castSucc m c t, PhiS_pos m c _ _ hz]
    by_cases h1 : t.val % 8 = 7
    · rw [leaves_out m c t h1]
      unfold outAt
      rw [accAt_next m c t h0]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) accM (Memref.isWhole_whole _)
        (fun h => h0 ((isFirst_iff t).mp h)) ((isLast_iff t).mpr h1) (xblk m c t) (wblk m c t) (bblk m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle_out t h1) (noFlush_out t h1)]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) accM (Memref.isWhole_whole _)
        (fun h => h0 ((isFirst_iff t).mp h)) (fun h => h1 ((isLast_iff t).mp h)) (xblk m c t) (wblk m c t) (bblk m c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the default one back: what the accumulator holds is forgotten. -/
theorem hout (c : Dev nD) : (dats m 0 c).Φ (Fin.last cfg0.N) ⊢ Pipeline.ΦA spec0 c := by
  have hN : cfg0.N = 512 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run and the frame -/

set_option backward.isDefEq.respectTransparency.types false in
/-- Every weakly fair execution of @main terminates; at the end every array of the pipeline holds what the library
    computes from the proof data, and every other unscoped buffer what the last host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Fr

end
-- ==== Proof.KernelIdeal.Around.lean ====
/-
  @main of the program is: thirteen host lines (three negations and five joins that assemble the
  4096 x 4096 block matrix W out of the four 1024 x 1024 parameter blocks, and two reshapes, of x to
  16384 x 4096 and of the bias to a row), the one kernel region, and one host line (the reshape of the
  region's result back to 8 x 2048 x 4096). This module holds what is said about those lines and about
  the region's schedule, before anything is said about the kernel body:
  * the contents the region finds in every buffer (the host lines' fold over the launch memory), and that
    no host line before the region writes an argument;
  * that the line after the region touches only buffers it may, allocates nothing and writes no array the
    region stages;
  * the block of each window at a grid point, and that an input window's staging buffer holds that block
    at every point, fetched there or not;
  * the two conditions of the body in closed form over the grid's 512 points, numbered row-major over
    (i, j, k) with k fastest: "k = 0" is "t % 8 = 0" and "k = 7" is "t % 8 = 7"; the output window is
    idle, and not written back, exactly where k is not 7;
  * the frame claim's post read off the launch theorem's post.
-/
import proofs.«164658_j64347200028815_1_alg».proof.Proof.Gen.KernelIdeal.Launch
import proofs.«164658_j64347200028815_1_alg».proof.Proof.Gen.KernelIdeal.Skeleton
import proofs.«164658_j64347200028815_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the thirteen host lines folded over the launch memory. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, the last host line: it reduces to the region continued by that line,
    the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches arrays of the pipeline and buffers that bypass it, nothing else. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes reference `b`, when `b` is none of the fifteen result buffers. -/
theorem V_keeps (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12) :
    V m c b = m ((c : Thread nD τ).loc b) := by
  obtain ⟨h0, h1, h2, h3, h4, h5, h6, h7, h8, h9, h10, h11, h12⟩ := hb
  refine StableHlo.after_of_forall_not_mem (b := Proc.devRef .tc b) _ _ (List.forall_iff_forall_mem.mp ?_)
  simp only [hostOps0, List.flatten_cons, List.flatten_nil, List.append_nil, List.Forall, StableHlo.unary_writes,
    StableHlo.nary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12⟩

theorem V_main_arg0 (c : Dev nD) : V m c main_arg0 = m ((c : Thread nD τ).loc main_arg0) := V_keeps m c _ (by decide)
theorem V_main_arg1 (c : Dev nD) : V m c main_arg1 = m ((c : Thread nD τ).loc main_arg1) := V_keeps m c _ (by decide)
theorem V_main_arg2 (c : Dev nD) : V m c main_arg2 = m ((c : Thread nD τ).loc main_arg2) := V_keeps m c _ (by decide)
theorem V_main_arg3 (c : Dev nD) : V m c main_arg3 = m ((c : Thread nD τ).loc main_arg3) := V_keeps m c _ (by decide)
theorem V_main_arg4 (c : Dev nD) : V m c main_arg4 = m ((c : Thread nD τ).loc main_arg4) := V_keeps m c _ (by decide)
theorem V_main_arg5 (c : Dev nD) : V m c main_arg5 = m ((c : Thread nD τ).loc main_arg5) := V_keeps m c _ (by decide)

/-- A buffer that is no array of the pipeline and is not the last line's result holds, after that line, what the
    region found in it. -/
theorem tail_keeps (dats : (p : Fin 1) → (c : Dev nD) → Dat τ (Elt F) Unit ℕ (UR sig nD τ) ℕ (cfgs p) c) (c : Dev nD) (b : Ref sig .tc)
    (harr : ∀ w, Pipeline.arrRef spec0 w ≠ b) (hb : b ≠ main_v14) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))]
  exact Pipeline.withArrays_of_ne _ c (V0 m c) _ b harr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched the block index has not moved; no input window is clipped or ever idle), for any proof data over the
    region-entry arrays whose body leaves the inputs in place. One statement per input window. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first step along k": the condition under which the accumulator is reset. -/
abbrev isFirst (i : grid0.Coords) : Prop := (Scalar.cmpi .ne (Scalar.extui (Scalar.cmpi .eq (BitVec.ofNat 32 (i 2).val) 0#32)) 0#32) = 1#1
/-- "This is the last step along k": the condition under which the output block is stored. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The three input windows are never idle; -/
theorem live_in : ∀ (w : Fin cfg0.W), w ≠ 3 → ∀ i, cfg0.idle w i = false := by
  intro w hw i; fin_cases w <;> first | rfl | exact absurd rfl hw
/-- the output window is idle where k is not 7, and is not written back there; it is live where k = 7. -/
theorem idle_out : ∀ t : Fin cfg0.N, ¬ t.val % 8 = 7 → cfg0.idle 3 (grid0.coords t) = true := by decide +kernel
theorem noFlush_out : ∀ t : Fin cfg0.N, ¬ t.val % 8 = 7 → (cfg0.win 3).flush t = false := by decide +kernel
theorem live_out : ∀ t : Fin cfg0.N, t.val % 8 = 7 → cfg0.idle 3 (grid0.coords t) = false := by decide +kernel

/-! ## The staging memrefs and the scratch -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own, passed beside the windows. -/
abbrev accM : Memref sig .tc .vmem S1024x1024 .f32 := Memref.whole cc0_scratch0

/-- The region's default invariant, spelled out: the accumulator owned at some contents, and the generator register
    at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; rfl

/-! ## The frame claim's post from the launch theorem's -/

/-- Each argument is no array of the pipeline and is not written by any host line: in a final state that satisfies the
    launch theorem's post it holds what it was launched with. -/
theorem post_args (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans ((tail_keeps m dats c _ (by decide) (by decide)).trans (V_main_arg0 m c)),
   ((h c).2 main_arg1 (Pipeline.mem_restRefs_of main_arg1 (by decide) (by decide))).trans ((tail_keeps m dats c _ (by decide) (by decide)).trans (V_main_arg1 m c)),
   ((h c).2 main_arg2 (Pipeline.mem_restRefs_of main_arg2 (by decide) (by decide))).trans ((tail_keeps m dats c _ (by decide) (by decide)).trans (V_main_arg2 m c)),
   ((h c).2 main_arg3 (Pipeline.mem_restRefs_of main_arg3 (by decide) (by decide))).trans ((tail_keeps m dats c _ (by decide) (by decide)).trans (V_main_arg3 m c)),
   ((h c).2 main_arg4 (Pipeline.mem_restRefs_of main_arg4 (by decide) (by decide))).trans ((tail_keeps m dats c _ (by decide) (by decide)).trans (V_main_arg4 m c)),
   ((h c).2 main_arg5 (Pipeline.mem_restRefs_of main_arg5 (by decide) (by decide))).trans ((tail_keeps m dats c _ (by decide) (by decide)).trans (V_main_arg5 m c))⟩

/-- The frame claim's post from a run to the launch theorem's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => post_args m dats r h c) h

end Cert.KernelIdeal.Fr

end
-- ==== Proof.KernelIdeal.Body.lean ====
/-
  The kernel body at one grid point, as three Hoare triples, one for each way its two conditions fall on the
  grid (k = 0; 0 < k < 7; k = 7 — k = 0 and k = 7 never coincide on a grid of 8 steps).

  The body: if k = 0, store zeros over the whole accumulator; load the x block, the W block and the accumulator;
  store (accumulator + x block . W block) over the whole accumulator; if k = 7, load the accumulator and the bias row
  and store (accumulator + bias row broadcast down the rows) over the whole output block.

  Every store is through the rectangle that is the whole buffer, so what a buffer holds afterwards is the payload of
  the last store into it, whatever it held before; and a load of the accumulator after a store into it reads that
  store's payload. Hence, with x, w, b the input buffers' contents and s the accumulator's on entry:
    k = 0      : accumulator := step x w zero                              (output buffer untouched)
    0 < k < 7  : accumulator := step x w s                                 (output buffer untouched)
    k = 7      : accumulator := step x w s;  output := withBias (step x w s) b
  where step, zero, withBias are the program's own pure payload terms. The inputs are left as found.
-/
import proofs.«164658_j64347200028815_1_alg».proof.Proof.KernelIdeal.Around
import Idealize.ShloMosaic.Lib.Pipeline.Value
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every rectangle the body uses is the origin. -/
theorem origin2 : (![0, 0] : Fin 2 → Nat) = fun _ => 0 := funext fun a => by fin_cases a <;> rfl

/-- A store through the rectangle that is the whole buffer, coming last, leaves its payload: whatever the earlier
    stores and the prior contents were. -/
theorem read_writes_whole_last {S : Shape} {e : EltTy} {κ : Kind} {sp : Space} (v : View sig κ sp S e) (f : v.ty.Contents (Elt F))
    {off : Fin S.rank → Nat} (hz : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P := by
  subst hz
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- k = 0: the accumulator is reset and then holds the first partial product; the output buffer is not touched. -/
theorem run_first (c : Dev nD) (i : grid0.Coords)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : isFirst i) (hc1 : ¬isLast i)
    (x : Vec F S1024x512 .f32) (w : Vec F S512x1024 .f32) (b : Vec F S1x1024 .f32) (o : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k0_pay2 x w (k0_pay1 (F := F)))) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [read_writes_whole_last _ _ origin2]
  simp only [View.readAt_eq_ld, harg3.read_unread, harg4.read_unread, View.ld_unit_zero (S := S1024x512) origin2,
    View.ld_unit_zero (S := S512x1024) origin2, View.readCov_unit_zero (S := S1024x1024) _ origin2]

set_option maxHeartbeats 1000000 in
/-- 0 < k < 7: one more partial product is added into the accumulator; the output buffer is not touched. -/
theorem run_mid (c : Dev nD) (i : grid0.Coords)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : ¬isLast i)
    (x : Vec F S1024x512 .f32) (w : Vec F S512x1024 .f32) (b : Vec F S1x1024 .f32) (o : Vec F S1024x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k0_pay2 x w s)) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6
  obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [read_writes_whole_last _ _ origin2]
  simp only [View.readAt_eq_ld, harg3.read_unread, harg4.read_unread, harg7.read_unread, View.ld_unit_zero (S := S1024x512) origin2,
    View.ld_unit_zero (S := S512x1024) origin2, View.ld_unit_zero (S := S1024x1024) origin2]

set_option maxHeartbeats 1000000 in
/-- k = 7: the last partial product is added, and the output block is the accumulator plus the bias row. -/
theorem run_last (c : Dev nD) (i : grid0.Coords)
    (arg3 : Memref sig .tc .vmem S1024x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬isFirst i) (hc1 : isLast i)
    (x : Vec F S1024x512 .f32) (w : Vec F S512x1024 .f32) (b : Vec F S1x1024 .f32) (s : Vec F S1024x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b) ∗ owns (c : Thread nD τ) arg7 fullShare (k0_pay2 x w s)) -∗ K ⟨⟩))
      ⊢ wp frame (wpE (defs₀ (F := F)) Variants.none c none) E (cc0__matmul_bias_kernel i arg3 harg3 arg4 harg4 arg5 harg5 arg6 harg6 arg7 harg7) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_whole_last _ _ origin2]
    simp only [View.readAt_eq_ld, harg3.read_unread, harg4.read_unread, harg5.read_unread, harg7.read_unread,
      View.ld_unit_zero (S := S1024x512) origin2, View.ld_unit_zero (S := S512x1024) origin2, View.ld_unit_zero (S := S1024x1024) origin2,
      View.ld_unit_zero (S := S1x1024) origin2, View.readCov_unit_zero (S := S1024x1024) _ origin2]
  iexists _; isplitr
  swap; · iexact H7
  ipureintro
  sl_unfold_run_names
  rw [read_writes_whole_last _ _ origin2]
  simp only [View.readAt_eq_ld, harg3.read_unread, harg4.read_unread, harg7.read_unread, View.ld_unit_zero (S := S1024x512) origin2,
    View.ld_unit_zero (S := S512x1024) origin2, View.ld_unit_zero (S := S1024x1024) origin2]

end Cert.KernelIdeal.Fr

end
-- ==== Proof.KernelIdeal.Frame.lean ====
/-
  The frame of the program: it runs to the end on every weakly fair schedule, faults nowhere, and leaves its six
  arguments as launched.

  The grid has 512 points, (i, j, k) in 16 x 4 x 8 with k fastest, so point t has k = t % 8. The accumulator is
  carried from one point to the next: after point t it holds
      step (x block at t) (W block at t) zero                      if t % 8 = 0,
      step (x block at t) (W block at t) (what point t - 1 left)   otherwise,
  where step and zero are the program's own payload terms (one partial product added in; the all-zero block). The
  region invariant before a point other than the first names exactly that: the accumulator owned at what the point
  before left. Before the first point, and after the last, it is the default one (the accumulator at anything).
  The output window's staging buffer is stored only where t % 8 = 7, with (accumulator + bias row); elsewhere it
  is idle and not written back, and the body hands it back as found.

  The body obligation at a point is then one of the three triples of the body, chosen by t % 8; the launch is the
  library's for one region with host lines around it and a carried scratch.
-/
import proofs.«164658_j64347200028815_1_alg».proof.Proof.KernelIdeal.Body
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point, at their literal types -/

abbrev xblk (c : Dev nD) (t : Fin cfg0.N) : Vec F S1024x512 .f32 := iblk m c 0 t
abbrev wblk (c : Dev nD) (t : Fin cfg0.N) : Vec F S512x1024 .f32 := iblk m c 1 t
abbrev bblk (c : Dev nD) (t : Fin cfg0.N) : Vec F S1x1024 .f32 := iblk m c 2 t

/-! ## The accumulator, point by point -/

/-- What the accumulator holds after the body at position `n`. -/
def accAt (c : Dev nD) : (n : ℕ) → n < cfg0.N → Vec F S1024x1024 .f32
  | 0, hn => k0_pay2 (xblk m c ⟨0, hn⟩) (wblk m c ⟨0, hn⟩) (k0_pay1 (F := F))
  | n + 1, hn =>
    if (n + 1) % 8 = 0 then k0_pay2 (xblk m c ⟨n + 1, hn⟩) (wblk m c ⟨n + 1, hn⟩) (k0_pay1 (F := F))
    else k0_pay2 (xblk m c ⟨n + 1, hn⟩) (wblk m c ⟨n + 1, hn⟩) (accAt c n (Nat.lt_of_succ_lt hn))

/-- At a first step along k the accumulator restarts from zero. -/
theorem accAt_first (c : Dev nD) (t : Fin cfg0.N) (h0 : t.val % 8 = 0) :
    accAt m c t.val t.isLt = k0_pay2 (xblk m c t) (wblk m c t) (k0_pay1 (F := F)) := by
  obtain ⟨n, hn⟩ := t
  cases n with
  | zero => rfl
  | succ n => exact if_pos h0

/-- At a later step it adds into what the point before left. -/
theorem accAt_next (c : Dev nD) (t : Fin cfg0.N) (h0 : ¬t.val % 8 = 0) :
    accAt m c t.val t.isLt = k0_pay2 (xblk m c t) (wblk m c t) (accAt m c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer is stored with at a point (consulted only where t % 8 = 7). -/
def outAt (c : Dev nD) (t : Fin cfg0.N) : Vec F S1024x1024 .f32 := k0_pay3 (accAt m c t.val t.isLt) (bblk m c t)

/-! ## The region invariant -/

/-- Before position `n`: the default invariant before the first point; afterwards the accumulator at what the point
    before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- On core `c`: the arrays as the region finds them; after the body each input's buffer still at its block, the
    output's at `outAt`; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) : (dats m 0 c).after 3 t = outAt m c t := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An input window is live everywhere, so the body must leave it exactly at `after`. -/
theorem leaves_x (c : Dev nD) (t : Fin cfg0.N) :
    (dats m 0 c).leavesExact 0 t = owns (c : Thread nD τ) (ms0 t) fullShare (iblk m c 0 t) := by
  unfold Dat.leavesExact; rw [live_in 0 (by decide) (grid0.coords t), after_x]
theorem leaves_w (c : Dev nD) (t : Fin cfg0.N) :
    (dats m 0 c).leavesExact 1 t = owns (c : Thread nD τ) (ms1 t) fullShare (iblk m c 1 t) := by
  unfold Dat.leavesExact; rw [live_in 1 (by decide) (grid0.coords t), after_w]
theorem leaves_b (c : Dev nD) (t : Fin cfg0.N) :
    (dats m 0 c).leavesExact 2 t = owns (c : Thread nD τ) (ms2 t) fullShare (iblk m c 2 t) := by
  unfold Dat.leavesExact; rw [live_in 2 (by decide) (grid0.coords t), after_b]
theorem leaves_out (c : Dev nD) (t : Fin cfg0.N) (h1 : t.val % 8 = 7) :
    (dats m 0 c).leavesExact 3 t = owns (c : Thread nD τ) (ms3 t) fullShare (outAt m c t) := by
  unfold Dat.leavesExact; rw [live_out t h1, after_out]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).owesAt () t.succ = (dats m 0 c).owesAt () t.castSucc from rfl]
  rw [show (dats m 0 c).Φ t.succ = PhiS m c (t.val + 1) t.isLt from rfl, PhiS_succ]
  rw [leaves_x, leaves_w, leaves_b]
  by_cases h0 : t.val % 8 = 0
  · have h1 : ¬t.val % 8 = 7 := by omega
    rw [Dat.leavesExact_idle (dats m 0 c) 3 t (idle_out t h1) (noFlush_out t h1)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) accM (Memref.isWhole_whole _)
        ((isFirst_iff t).mpr h0) (fun h => h1 ((isLast_iff t).mp h)) (xblk m c t) (wblk m c t) (bblk m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_first c (grid0.coords t) (ms0 t) (hs0 t) (ms1 t) (hs1 t) (ms2 t) (hs2 t) (ms3 t) (hs3 t) accM (Memref.isWhole_whole _)
        ((isFirst_iff t).mpr h0) (fun h => h1 ((isLast_iff t).mp h)) (xblk m c t) (wblk m c t) (bblk m c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_next m c t h0]
    rw [PhiS_castSucc m c t, PhiS_pos m c _ _ hz]
    by_cases h1 : t.val % 8 = 7
    · rw [leaves_out m c t h1]
      unfold outAt
      rw [accAt_next m c t h0]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) accM (Memref.isWhole_whole _)
        (fun h => h0 ((isFirst_iff t).mp h)) ((isLast_iff t).mpr h1) (xblk m c t) (wblk m c t) (bblk m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (idle_out t h1) (noFlush_out t h1)]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) accM (Memref.isWhole_whole _)
        (fun h => h0 ((isFirst_iff t).mp h)) (fun h => h1 ((isLast_iff t).mp h)) (xblk m c t) (wblk m c t) (bblk m c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the default one back: what the accumulator holds is forgotten. -/
theorem hout (c : Dev nD) : (dats m 0 c).Φ (Fin.last cfg0.N) ⊢ Pipeline.ΦA spec0 c := by
  have hN : cfg0.N = 512 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run and the frame -/

set_option backward.isDefEq.respectTransparency.types false in
/-- Every weakly fair execution of @main terminates; at the end every array of the pipeline holds what the library
    computes from the proof data, and every other unscoped buffer what the last host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Fr

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelIdeal.Payloads.lean ====
/-
  The kernel body's three pure payloads, read at an index on the extended reals.

  At the ideal instance a float is an extended real, a change of float format is the identity, a reshape to the same
  shape is the identity, and the matrix unit's product into a zero accumulator is the plain contraction sum. So:
    zero            at (p, q)  is  0;
    step x w s      at (p, q)  is  s(p, q) + sum over k < 512 of x(p, k) * w(k, q);
    withBias a b    at (p, q)  is  a(p, q) + b(0, q)      (the bias row broadcast down the rows).
-/
import proofs.«164658_j64347200028815_1_alg».proof.Proof.Gen.KernelIdeal.Skeleton
import proofs.«164658_j64347200028815_1_alg».proof.Proof.LibPlainDot
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-- The all-zero block. -/
theorem zero_apply (j : S1024x1024.Idx) : k0_pay1 (F := Ideal) j = 0 := by
  unfold k0_pay1
  rw [shapeCast_self]
  show Ideal.ofBits .f32 0x00000000#32 = 0
  exact Ideal.ofBits_zero_f32

/-- One step of the accumulation: what was there, plus this step's partial product. -/
theorem step_apply (x : Vec Ideal S1024x512 .f32) (w : Vec Ideal S512x1024 .f32) (s : Vec Ideal S1024x1024 .f32)
    (p q : Fin 1024) :
    k0_pay2 (F := Ideal) x w s (ix2 p q) = s (ix2 p q) + ∑ k : Fin 512, x (ix2 p k) * w (ix2 k q) := by
  unfold k0_pay2
  simp only [shapeCast_self]
  rw [addf_apply]
  refine congrArg (s (ix2 p q) + ·) ?_
  refine (Ideal.matmul_constant_zero_apply dot_S1024x512_S512x1024_S1024x1024_1_0_0_1_n_n none _ _ (ix2 p q)).trans ?_
  exact PlainDot.sum_eq dot_S1024x512_S512x1024_S1024x1024_1_0_0_1_n_n rfl rfl rfl rfl rfl rfl _ _ p q

/-- The output block: the accumulator plus the bias row, the row read at the same column. -/
theorem withBias_apply (a : Vec Ideal S1024x1024 .f32) (b : Vec Ideal S1x1024 .f32) (p q : Fin 1024) :
    k0_pay3 (F := Ideal) a b (ix2 p q) = a (ix2 p q) + b (ix2 (0 : Fin 1) q) := by
  unfold k0_pay3
  simp only [shapeCast_self]
  rw [addf_apply]
  refine congrArg (a (ix2 p q) + ·) ?_
  refine broadcastTo_apply _ broadcasts_S1x1024_S1024x1024 (ix2 p q) (ix2 (0 : Fin 1) q) (fun d => ?_)
  match d with
  | ⟨0, _⟩ => show 0 = if (1 : Nat) = 1 then 0 else _; rw [if_pos rfl]
  | ⟨1, _⟩ => show q.val = if (1024 : Nat) = 1 then 0 else q.val; rw [if_neg (by decide)]

end Cert.KernelIdeal.Pay

end
-- ==== Proof.Spec.lean ====
/-
  The arithmetic the two programs share, free of either program.

  Both compute, for a row index r of the flattened activations and a column n,
      out(r, n) = (sum over k < 4096 of X(r, k) * W(k, n)) + bias(n).
  The reference takes the 4096 terms in one sum. The kernel walks the contraction axis in 8 steps of 512: it starts
  its accumulator at zero, adds one step's partial product at each step, and adds the bias after the eighth. So its
  accumulator after step K (counting from 0) is the sum of the first (K + 1) * 512 terms, and what joins the two sides
  is only that a sum over the first a + b numbers is the sum over the first a plus the sum over the next b: addition's
  associativity in a commutative monoid. Nothing here needs the terms to be finite; on the extended reals the law holds
  as it stands.

  The terms are indexed by plain numbers (an array read outside its extents counts as zero), so that "the first
  (K + 1) * 512 terms" is a range of numbers and no index type depends on K.
-/
import Idealize.ShloMosaic.Lib.ValueIdx

namespace HamiltonSpec

open Finset

variable {M : Type} [AddCommMonoid M]

/-- One more block of `n` terms: the first `(K + 1) * n` terms are the first `K * n` and then `n` more. -/
theorem sum_range_succ_block (f : ℕ → M) (K n : ℕ) :
    ∑ k ∈ range ((K + 1) * n), f k = ∑ k ∈ range (K * n), f k + ∑ j ∈ range n, f (K * n + j) := by
  rw [Nat.add_mul, Nat.one_mul, sum_range_add]

/-- The first block alone, started from zero: what the accumulator holds after its first step. -/
theorem zero_add_first_block (f : ℕ → M) (n : ℕ) :
    0 + ∑ j ∈ range n, f (0 * n + j) = ∑ k ∈ range ((0 + 1) * n), f k := by
  rw [zero_add, Nat.zero_add, Nat.one_mul]
  exact sum_congr rfl fun j _ => by rw [Nat.zero_mul, Nat.zero_add]

/-- A matrix entry by plain numbers, zero outside the extents. -/
def at2 {A B : ℕ} (f : Fin A → Fin B → M) (a b : ℕ) : M :=
  if h : a < A ∧ b < B then f ⟨a, h.1⟩ ⟨b, h.2⟩ else 0

theorem at2_of_lt {A B : ℕ} (f : Fin A → Fin B → M) {a b : ℕ} (ha : a < A) (hb : b < B) :
    at2 f a b = f ⟨a, ha⟩ ⟨b, hb⟩ := by
  unfold at2; rw [dif_pos ⟨ha, hb⟩]

/-- A sum over `Fin n` of a function of the number is the sum over the numbers below `n`. -/
theorem sum_fin_eq_range (f : ℕ → M) (n : ℕ) : ∑ k : Fin n, f k.val = ∑ k ∈ range n, f k :=
  Fin.sum_univ_eq_sum_range f n

/-- The accumulator after its first step: zero plus the first block's `n` terms is the sum of the first `n` terms
    (`K` is the step's number, which is zero). -/
theorem start_block (f : ℕ → M) (n K : ℕ) (hK : K = 0) :
    0 + ∑ j : Fin n, f (K * n + j.val) = ∑ k ∈ range ((K + 1) * n), f k := by
  subst hK
  rw [sum_fin_eq_range (fun j => f (0 * n + j)) n]
  exact zero_add_first_block f n

/-- The accumulator after a later step: if before it held the first `(K' + 1) * n` terms and this is step
    `K = K' + 1`, then adding the step's `n` terms gives the first `(K + 1) * n`. -/
theorem next_block (f : ℕ → M) (n K K' : ℕ) (hK : K = K' + 1) (S : M) (hS : S = ∑ k ∈ range ((K' + 1) * n), f k) :
    S + ∑ j : Fin n, f (K * n + j.val) = ∑ k ∈ range ((K + 1) * n), f k := by
  subst hK; subst hS
  rw [sum_fin_eq_range (fun j => f ((K' + 1) * n + j)) n]
  exact (sum_range_succ_block f (K' + 1) n).symm

end HamiltonSpec
-- ==== Proof.KernelIdeal.Acc.lean ====
/-
  What the accumulator holds after each grid point, on the extended reals.

  Write X for the flattened activations (16384 x 4096), W for the block matrix (4096 x 4096) and B for the bias row
  (1 x 4096), all as the region finds them. Point t of the grid has i = t / 32, j = t / 8 % 4, k = t % 8; its x block is
  rows i*1024.. of X and columns k*512.., its W block rows k*512.. and columns j*1024.., its bias block columns
  j*1024... Reading the arrays by plain numbers,
      after point t the accumulator at (p, q) is
          the sum over n < (k + 1) * 512 of X(i*1024 + p, n) * W(n, j*1024 + q).
  By induction on t: where k = 0 the accumulator restarts from zero and takes the first 512 terms; where k > 0 the
  point before has the same i and j and one less k, so it left the first k * 512 terms, and this step adds the next
  512 (the block law of a sum over a range of numbers).
-/
import proofs.«164658_j64347200028815_1_alg».proof.Proof.KernelIdeal.Frame
import proofs.«164658_j64347200028815_1_alg».proof.Proof.KernelIdeal.Payloads
import proofs.«164658_j64347200028815_1_alg».proof.Proof.Spec
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)
open Finset HamiltonSpec

variable (m : (ℓ : Loc nD τ sig) → Buf (Elt Ideal) ℓ)

/-! ## The staged arrays, by number -/

abbrev Xarr (c : Dev nD) : Vec Ideal S16384x4096 .f32 := V m c main_v11
abbrev Warr (c : Dev nD) : Vec Ideal S4096x4096 .f32 := V m c main_v10
abbrev Barr (c : Dev nD) : Vec Ideal S1x4096 .f32 := V m c main_v12

/-- X(r, n), zero outside the array. -/
def Xn (c : Dev nD) (r n : ℕ) : EReal := at2 (fun (a : Fin 16384) (b : Fin 4096) => Xarr m c (ix2 a b)) r n
/-- W(n, col), zero outside the array. -/
def Wn (c : Dev nD) (n col : ℕ) : EReal := at2 (fun (a : Fin 4096) (b : Fin 4096) => Warr m c (ix2 a b)) n col
/-- B(0, col), zero outside the array. -/
def Bn (c : Dev nD) (col : ℕ) : EReal := at2 (fun (a : Fin 1) (b : Fin 4096) => Barr m c (ix2 a b)) 0 col

/-! ## The index maps over the grid -/

theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-! ## The blocks, read off the arrays -/

theorem xblk_apply (c : Dev nD) (t : Fin cfg0.N) (p : Fin 1024) (k : Fin 512) :
    xblk m c t (ix2 p k) = Xn m c (t.val / 32 * 1024 + p.val) (t.val % 8 * 512 + k.val) := by
  obtain ⟨e0, e1, -⟩ := idx_facts t
  have ht : t.val < 512 := lt_of_lt_of_eq t.isLt N_0
  have hp := p.isLt
  have hk := k.isLt
  unfold Xn
  rw [at2_of_lt _ (by omega) (by omega)]
  show V m c main_v11 (((cfg0.win 0).blk t).view.emb (ix2 p k)) = V m c main_v11 (ix2 _ _)
  refine congrArg (V m c main_v11) (funext fun a => Fin.ext ?_)
  match a with
  | ⟨0, _⟩ => show win0_0.index t (0 : Fin 2) * 1024 + 1 * p.val = t.val / 32 * 1024 + p.val; omega
  | ⟨1, _⟩ => show win0_0.index t (1 : Fin 2) * 512 + 1 * k.val = t.val % 8 * 512 + k.val; omega

theorem wblk_apply (c : Dev nD) (t : Fin cfg0.N) (k : Fin 512) (q : Fin 1024) :
    wblk m c t (ix2 k q) = Wn m c (t.val % 8 * 512 + k.val) (t.val / 8 % 4 * 1024 + q.val) := by
  obtain ⟨-, -, e0, e1, -⟩ := idx_facts t
  have ht : t.val < 512 := lt_of_lt_of_eq t.isLt N_0
  have hq := q.isLt
  have hk := k.isLt
  unfold Wn
  rw [at2_of_lt _ (by omega) (by omega)]
  show V m c main_v10 (((cfg0.win 1).blk t).view.emb (ix2 k q)) = V m c main_v10 (ix2 _ _)
  refine congrArg (V m c main_v10) (funext fun a => Fin.ext ?_)
  match a with
  | ⟨0, _⟩ => show win0_1.index t (0 : Fin 2) * 512 + 1 * k.val = t.val % 8 * 512 + k.val; omega
  | ⟨1, _⟩ => show win0_1.index t (1 : Fin 2) * 1024 + 1 * q.val = t.val / 8 % 4 * 1024 + q.val; omega

theorem bblk_apply (c : Dev nD) (t : Fin cfg0.N) (q : Fin 1024) :
    bblk m c t (ix2 (0 : Fin 1) q) = Bn m c (t.val / 8 % 4 * 1024 + q.val) := by
  obtain ⟨-, -, -, -, e0, e1, -⟩ := idx_facts t
  have ht : t.val < 512 := lt_of_lt_of_eq t.isLt N_0
  have hq := q.isLt
  unfold Bn
  rw [at2_of_lt _ (by omega) (by omega)]
  show V m c main_v12 (((cfg0.win 2).blk t).view.emb (ix2 (0 : Fin 1) q)) = V m c main_v12 (ix2 _ _)
  refine congrArg (V m c main_v12) (funext fun a => Fin.ext ?_)
  match a with
  | ⟨0, _⟩ => show win0_2.index t (0 : Fin 2) * 1 + 1 * 0 = 0; omega
  | ⟨1, _⟩ => show win0_2.index t (1 : Fin 2) * 1024 + 1 * q.val = t.val / 8 % 4 * 1024 + q.val; omega

/-! ## The accumulator after each point -/

theorem accAt_succ_first (c : Dev nD) (n : ℕ) (hn : n + 1 < cfg0.N) (h : (n + 1) % 8 = 0) :
    accAt m c (n + 1) hn = k0_pay2 (xblk m c ⟨n + 1, hn⟩) (wblk m c ⟨n + 1, hn⟩) (k0_pay1 (F := Ideal)) := if_pos h
theorem accAt_succ_next (c : Dev nD) (n : ℕ) (hn : n + 1 < cfg0.N) (h : ¬(n + 1) % 8 = 0) :
    accAt m c (n + 1) hn = k0_pay2 (xblk m c ⟨n + 1, hn⟩) (wblk m c ⟨n + 1, hn⟩) (accAt m c n (Nat.lt_of_succ_lt hn)) := if_neg h

/-- The terms of the contraction at row `r` and column `col`, by number. -/
abbrev term (c : Dev nD) (r col : ℕ) : ℕ → EReal := fun n => Xn m c r n * Wn m c n col

theorem acc_apply (c : Dev nD) : ∀ (n : ℕ) (hn : n < cfg0.N) (p q : Fin 1024),
    accAt m c n hn (ix2 p q) = ∑ k ∈ range ((n % 8 + 1) * 512), term m c (n / 32 * 1024 + p.val) (n / 8 % 4 * 1024 + q.val) k := by
  intro n
  induction n with
  | zero =>
    intro hn p q
    rw [show accAt m c 0 hn = k0_pay2 (xblk m c ⟨0, hn⟩) (wblk m c ⟨0, hn⟩) (k0_pay1 (F := Ideal)) from rfl,
      Pay.step_apply, Pay.zero_apply]
    simp only [xblk_apply, wblk_apply]
    exact start_block (term m c (0 / 32 * 1024 + p.val) (0 / 8 % 4 * 1024 + q.val)) 512 (0 % 8) rfl
  | succ n ih =>
    intro hn p q
    by_cases h0 : (n + 1) % 8 = 0
    · rw [accAt_succ_first m c n hn h0, Pay.step_apply, Pay.zero_apply]
      simp only [xblk_apply, wblk_apply]
      exact start_block (term m c ((n + 1) / 32 * 1024 + p.val) ((n + 1) / 8 % 4 * 1024 + q.val)) 512 ((n + 1) % 8) h0
    · rw [accAt_succ_next m c n hn h0, Pay.step_apply]
      simp only [xblk_apply, wblk_apply]
      refine next_block (term m c ((n + 1) / 32 * 1024 + p.val) ((n + 1) / 8 % 4 * 1024 + q.val)) 512 ((n + 1) % 8) (n % 8) (by omega) _ ?_
      have e1 : (n + 1) / 32 = n / 32 := by omega
      have e2 : (n + 1) / 8 % 4 = n / 8 % 4 := by omega
      rw [e1, e2]
      exact ih (Nat.lt_of_succ_lt hn) p q

/-- At a point with k = 7 the output block is the whole 4096-term sum plus the bias entry. -/
theorem out_apply (c : Dev nD) (t : Fin cfg0.N) (h7 : t.val % 8 = 7) (p q : Fin 1024) :
    outAt m c t (ix2 p q) = (∑ k ∈ range 4096, term m c (t.val / 32 * 1024 + p.val) (t.val / 8 % 4 * 1024 + q.val) k)
      + Bn m c (t.val / 8 % 4 * 1024 + q.val) := by
  unfold outAt
  rw [Pay.withBias_apply, acc_apply m c t.val t.isLt p q, bblk_apply, h7]

end Cert.KernelIdeal.Val

end
-- ==== Proof.KernelIdeal.Host.lean ====
/-
  What the region finds in the three arrays it stages from, in terms of the launch arguments.

  The thirteen host lines before the region compute, from the arguments x, r, i, j, k, bias:
    the block matrix  W = [[ r,  i,  j,  k],
                           [-i,  r,  k, -j],
                           [-j, -k,  r,  i],
                           [-k,  j, -i,  r]]      (each column a join along axis 0, the four columns joined along axis 1),
    x reshaped to 16384 x 4096, and the bias reshaped to a 1 x 4096 row.
  W is kept as one function of the four blocks (`Wof`), never opened: the reference assembles it with the same lines.
-/
import proofs.«164658_j64347200028815_1_alg».proof.Proof.KernelIdeal.Around
import Idealize.ShloMosaic.Lib.StableHlo.Run
import Idealize.ShloMosaic.Lib.ValueIdx
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

section
variable {F : FTy → Type} [FloatOps F]
/-- The block matrix as the host lines assemble it. -/
def Wof (x1 x2 x3 x4 : (⟨S1024x1024, .f32⟩ : BufTy).Contents (Elt F)) : (⟨S4096x4096, .f32⟩ : BufTy).Contents (Elt F) :=
  concatenate S4096x4096 1 [⟨S4096x1024, (concatenate S4096x1024 0 [⟨S1024x1024, (x1)⟩, ⟨S1024x1024, ((Host.negf : (⟨S1024x1024, .f32⟩ : BufTy).Contents (Elt F) → (⟨S1024x1024, .f32⟩ : BufTy).Contents (Elt F)) x2)⟩, ⟨S1024x1024, ((Host.negf : (⟨S1024x1024, .f32⟩ : BufTy).Contents (Elt F) → (⟨S1024x1024, .f32⟩ : BufTy).Contents (Elt F)) x3)⟩, ⟨S1024x1024, ((Host.negf : (⟨S1024x1024, .f32⟩ : BufTy).Contents (Elt F) → (⟨S1024x1024, .f32⟩ : BufTy).Contents (Elt F)) x4)⟩] concatenates_S1024x1024_S1024x1024_S1024x1024_S1024x1024_S4096x1024_d0)⟩, ⟨S4096x1024, (concatenate S4096x1024 0 [⟨S1024x1024, (x2)⟩, ⟨S1024x1024, (x1)⟩, ⟨S1024x1024, ((Host.negf : (⟨S1024x1024, .f32⟩ : BufTy).Contents (Elt F) → (⟨S1024x1024, .f32⟩ : BufTy).Contents (Elt F)) x4)⟩, ⟨S1024x1024, (x3)⟩] concatenates_S1024x1024_S1024x1024_S1024x1024_S1024x1024_S4096x1024_d0)⟩, ⟨S4096x1024, (concatenate S4096x1024 0 [⟨S1024x1024, (x3)⟩, ⟨S1024x1024, (x4)⟩, ⟨S1024x1024, (x1)⟩, ⟨S1024x1024, ((Host.negf : (⟨S1024x1024, .f32⟩ : BufTy).Contents (Elt F) → (⟨S1024x1024, .f32⟩ : BufTy).Contents (Elt F)) x2)⟩] concatenates_S1024x1024_S1024x1024_S1024x1024_S1024x1024_S4096x1024_d0)⟩, ⟨S4096x1024, (concatenate S4096x1024 0 [⟨S1024x1024, (x4)⟩, ⟨S1024x1024, ((Host.negf : (⟨S1024x1024, .f32⟩ : BufTy).Contents (Elt F) → (⟨S1024x1024, .f32⟩ : BufTy).Contents (Elt F)) x3)⟩, ⟨S1024x1024, (x2)⟩, ⟨S1024x1024, (x1)⟩] concatenates_S1024x1024_S1024x1024_S1024x1024_S1024x1024_S4096x1024_d0)⟩] concatenates_S4096x1024_S4096x1024_S4096x1024_S4096x1024_S4096x4096_d1
end

theorem V_W (c : Dev nD) :
    V m c main_v10 = Wof (F := Ideal) (m ((c : Thread nD τ).loc main_arg1)) (m ((c : Thread nD τ).loc main_arg2)) (m ((c : Thread nD τ).loc main_arg3)) (m ((c : Thread nD τ).loc main_arg4)) := by
  unfold Wof
  dsimp only [V, V0]
  simp only [hostOps0, List.flatten_cons, List.flatten_nil, List.append_nil]
  after_results <;> rfl

theorem V_X (c : Dev nD) :
    V m c main_v11 = shapeCast S16384x4096 (m ((c : Thread nD τ).loc main_arg0)) shapeCasts_S8x2048x4096_S16384x4096 := by
  dsimp only [V, V0]
  simp only [hostOps0, List.flatten_cons, List.flatten_nil, List.append_nil]
  after_results <;> rfl

theorem V_B (c : Dev nD) :
    V m c main_v12 = shapeCast S1x4096 (m ((c : Thread nD τ).loc main_arg5)) shapeCasts_S4096_S1x4096 := by
  dsimp only [V, V0]
  simp only [hostOps0, List.flatten_cons, List.flatten_nil, List.append_nil]
  after_results <;> rfl

end Cert.KernelIdeal.Val

end
-- ==== Proof.KernelIdeal.Result.lean ====
/-
  The program's result on the extended reals, as a function of the launch arguments.

  The output window is written back exactly at the 64 points with k = 7, one for each (i, j) in 16 x 4, and point
  (i, j, 7) writes the 1024 x 1024 block at rows i*1024.., columns j*1024.. of the 16384 x 4096 result. Those blocks
  tile the array, and at such a point the output block is the whole 4096-term sum plus the bias entry, so after the
  run the result array at (r, col) is
      (sum over n < 4096 of X(r, n) * W(n, col)) + B(0, col).
  The last host line reshapes it to 8 x 2048 x 4096; row r = a*2048 + b of the flat array is entry (a, b) of the
  first two axes, the same correspondence by which X is the reshape of x. Hence the result at (a, b, col) is
      (sum over n < 4096 of x(a, b, n) * W(n, col)) + bias(col).
-/
import proofs.«164658_j64347200028815_1_alg».proof.Proof.KernelIdeal.Acc
import proofs.«164658_j64347200028815_1_alg».proof.Proof.KernelIdeal.Host
set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)
open Finset HamiltonSpec

variable (m : (ℓ : Loc nD τ sig) → Buf (Elt Ideal) ℓ)

/-! ## The region's result array -/

/-- The result array after the run, as one function of the staged arrays. -/
def Gout (c : Dev nD) : Vec Ideal S16384x4096 .f32 :=
  fun i => (∑ k ∈ range 4096, term m c (i 0).val (i 1).val k) + Bn m c (i 1).val

theorem out_apply' (c : Dev nD) (t : Fin cfg0.N) (h7 : t.val % 8 = 7) (j : S1024x1024.Idx) :
    outAt m c t j = (∑ k ∈ range 4096, term m c (t.val / 32 * 1024 + (j 0).val) (t.val / 8 % 4 * 1024 + (j 1).val) k)
      + Bn m c (t.val / 8 % 4 * 1024 + (j 1).val) := by
  rw [eq_ix2 j]
  exact out_apply m c t h7 (j 0) (j 1)

/-- What a point with k = 7 writes back is its block of `Gout`. -/
theorem flushed_eq (c : Dev nD) (t : Fin cfg0.N) (hf : (cfg0.win 3).flush t = true) :
    (dats m 0 c).flushed 3 t = ((cfg0.win 3).blk t).view.read (Elt Ideal) (Gout m c) := by
  have h7 := (flush0_3 t).mp hf
  obtain ⟨-, -, -, -, -, -, e0, e1⟩ := idx_facts t
  show (cfg0.win 3).cut (grid0.coords t) ((dats m 0 c).after 3 t) = _
  rw [after_out]
  funext j
  show outAt m c t j = Gout m c (((cfg0.win 3).blk t).view.emb j)
  rw [out_apply' m c t h7 j]
  unfold Gout
  have a0 : ((((cfg0.win 3).blk t).view.emb j) 0).val = t.val / 32 * 1024 + (j 0).val := by
    show win0_3.index t (0 : Fin 2) * 1024 + 1 * (j 0).val = _; omega
  have a1 : ((((cfg0.win 3).blk t).view.emb j) 1).val = t.val / 8 % 4 * 1024 + (j 1).val := by
    show win0_3.index t (1 : Fin 2) * 1024 + 1 * (j 1).val = _; omega
  rw [a0, a1]

/-- An index of the result array is in point `t`'s block iff each coordinate is in the block's range. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v13).slice (win0_3.rect t)).set ↔ _
  rw [View.set_slice_whole, Rect.mem_set_unit]
  exact Iff.rfl

/-- Every index of the result array is in the block of a point that writes back: the point (r / 1024, col / 1024, 7). -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 512 := N_0
  have hlt : (i 0).val / 1024 * 32 + (i 1).val / 1024 * 8 + 7 < cfg0.N := by omega
  refine ⟨⟨(i 0).val / 1024 * 32 + (i 1).val / 1024 * 8 + 7, hlt⟩, (flush0_3 _).mpr (by show ((i 0).val / 1024 * 32 + (i 1).val / 1024 * 8 + 7) % 8 = 7; omega), ?_⟩
  obtain ⟨-, -, -, -, -, -, e0, e1⟩ := idx_facts ⟨(i 0).val / 1024 * 32 + (i 1).val / 1024 * 8 + 7, hlt⟩
  have e0' : win0_3.index ⟨(i 0).val / 1024 * 32 + (i 1).val / 1024 * 8 + 7, hlt⟩ (0 : Fin 2) = ((i 0).val / 1024 * 32 + (i 1).val / 1024 * 8 + 7) / 32 := e0
  have e1' : win0_3.index ⟨(i 0).val / 1024 * 32 + (i 1).val / 1024 * 8 + 7, hlt⟩ (1 : Fin 2) = ((i 0).val / 1024 * 32 + (i 1).val / 1024 * 8 + 7) / 8 % 4 := e1
  rw [mem_blk]
  intro a
  match a with
  | ⟨0, _⟩ =>
    show win0_3.index ⟨(i 0).val / 1024 * 32 + (i 1).val / 1024 * 8 + 7, hlt⟩ (0 : Fin 2) * 1024 ≤ (i 0).val ∧ (i 0).val < win0_3.index ⟨(i 0).val / 1024 * 32 + (i 1).val / 1024 * 8 + 7, hlt⟩ (0 : Fin 2) * 1024 + 1024
    omega
  | ⟨1, _⟩ =>
    show win0_3.index ⟨(i 0).val / 1024 * 32 + (i 1).val / 1024 * 8 + 7, hlt⟩ (1 : Fin 2) * 1024 ≤ (i 1).val ∧ (i 1).val < win0_3.index ⟨(i 0).val / 1024 * 32 + (i 1).val / 1024 * 8 + 7, hlt⟩ (1 : Fin 2) * 1024 + 1024
    omega

/-- The result array after the run. -/
theorem final (c : Dev nD) : (dats m 0 c).arrAt 3 cfg0.N = Gout m c :=
  (dats m 0 c).arrAt_eq_of_cover 3 (Gout m c) (fun t hf => flushed_eq m c t hf) (cover)

/-! ## The last host line -/

theorem tail_result (c : Dev nD) :
    Pipeline.afterTail₀ cfgs (dats m) 0 (V0 m) [hostOps1] c main_v14
      = shapeCast S8x2048x4096 (Gout m c) shapeCasts_S16384x4096_S8x2048x4096 := by
  unfold Pipeline.afterTail₀
  show StableHlo.after hostOps1 _ (Proc.devRef .tc main_v14) = _
  after_results
  rw [(Pipeline.withArrays_arr spec0 launch0.win.arr_inj c _ _ 3).trans (final m c)]
  rfl

/-! ## The staged arrays in terms of the launch arguments -/

/-- The six launch arguments on core `c`, at their literal types. -/
abbrev xArg (c : Dev nD) : Vec Ideal S8x2048x4096 .f32 := m ((c : Thread nD τ).loc main_arg0)
abbrev rArg (c : Dev nD) : Vec Ideal S1024x1024 .f32 := m ((c : Thread nD τ).loc main_arg1)
abbrev iArg (c : Dev nD) : Vec Ideal S1024x1024 .f32 := m ((c : Thread nD τ).loc main_arg2)
abbrev jArg (c : Dev nD) : Vec Ideal S1024x1024 .f32 := m ((c : Thread nD τ).loc main_arg3)
abbrev kArg (c : Dev nD) : Vec Ideal S1024x1024 .f32 := m ((c : Thread nD τ).loc main_arg4)
abbrev biasArg (c : Dev nD) : Vec Ideal S4096 .f32 := m ((c : Thread nD τ).loc main_arg5)
/-- The block matrix of the four parameter blocks. -/
abbrev Wmat (c : Dev nD) : Vec Ideal S4096x4096 .f32 := Wof (F := Ideal) (rArg m c) (iArg m c) (jArg m c) (kArg m c)

theorem Xn_apply (c : Dev nD) (a : Fin 8) (b : Fin 2048) (k : Fin 4096) :
    Xn m c (a.val * 2048 + b.val) k.val = xArg m c (ix3 a b k) := by
  have ha := a.isLt
  have hb := b.isLt
  unfold Xn
  rw [at2_of_lt _ (by omega) k.isLt]
  show V m c main_v11 (ix2 _ _) = _
  rw [V_X]
  exact shapeCast_apply _ _ _ (ix3 a b k) (by rw [Shape.rowMajor_val_three, Shape.rowMajor_val_two]; rfl)

theorem Wn_apply (c : Dev nD) (k n : Fin 4096) :
    Wn m c k.val n.val = Wmat m c (ix2 k n) := by
  unfold Wn
  rw [at2_of_lt _ k.isLt n.isLt]
  show V m c main_v10 (ix2 _ _) = _
  rw [V_W]

theorem Bn_apply (c : Dev nD) (n : Fin 4096) :
    Bn m c n.val = biasArg m c (ix1 n) := by
  unfold Bn
  rw [at2_of_lt _ Nat.one_pos n.isLt]
  show V m c main_v12 (ix2 _ _) = _
  rw [V_B]
  exact shapeCast_apply _ _ _ (ix1 n) (by rw [Shape.rowMajor_val_one, Shape.rowMajor_val_two]; simp)

/-- The program's result at (a, b, col). -/
theorem result_apply (c : Dev nD) (a : Fin 8) (b : Fin 2048) (n : Fin 4096) :
    shapeCast S8x2048x4096 (Gout m c) shapeCasts_S16384x4096_S8x2048x4096 (ix3 a b n)
      = (∑ k : Fin 4096, xArg m c (ix3 a b k) * Wmat m c (ix2 k n)) + biasArg m c (ix1 n) := by
  have ha := a.isLt
  have hb := b.isLt
  rw [shapeCast_apply (Gout m c) _ (ix3 a b n) (ix2 (⟨a.val * 2048 + b.val, by omega⟩ : Fin 16384) n)
    (by rw [Shape.rowMajor_val_two, Shape.rowMajor_val_three]; rfl)]
  show (∑ k ∈ range 4096, term m c (a.val * 2048 + b.val) n.val k) + Bn m c n.val = _
  rw [← sum_fin_eq_range (term m c (a.val * 2048 + b.val) n.val) 4096, Bn_apply]
  refine congrArg (· + biasArg m c (ix1 n)) (Finset.sum_congr rfl fun k _ => ?_)
  show Xn m c (a.val * 2048 + b.val) k.val * Wn m c k.val n.val = _
  rw [Xn_apply, Wn_apply]

/-! ## The run, read -/

/-- Every weakly fair execution terminates with the result buffer at the reshape of `Gout` and the arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v14) = shapeCast S8x2048x4096 (Gout m c) shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v14 (Pipeline.mem_restRefs_of main_v14 (by decide) (by decide))).trans (tail_result m c), post_args m (dats m) r h c⟩)
    (run_main m ρ)

end Cert.KernelIdeal.Val

end
-- ==== Proof.RefRead.lean ====
/-
  The reference's result, read at an index.

  The reference contracts x (8 x 2048 x 4096) with the block matrix W (4096 x 4096) along x's last axis and W's
  first, and adds the bias broadcast over the first two axes. Reading its run one operation at a time, its result at
  (a, b, n) is
      (sum over k < 4096 of x(a, b, k) * W(k, n)) + bias(n),
  where W is whatever the five joins and four negations before the contraction assemble from the four parameter
  blocks: that stage is kept as one opaque function of the blocks, since the kernel's program assembles the same one.
-/
import proofs.«164658_j64347200028815_1_alg».proof.Proof.Gen.ReferenceIdeal.Run
import proofs.«164658_j64347200028815_1_alg».proof.Proof.Gen.ReferenceIdeal.Read

noncomputable section

namespace Cert.ReferenceIdeal.RefValue

open Cert.ReferenceIdeal Cert.ReferenceIdeal.Read
open Idealize.ShloMosaic Idealize.ShloMosaic.ValueIdx

theorem result_apply (x0 : (⟨S8x2048x4096, .f32⟩ : BufTy).Contents (Elt Ideal))
    (x1 x2 x3 x4 : (⟨S1024x1024, .f32⟩ : BufTy).Contents (Elt Ideal)) (x5 : (⟨S4096, .f32⟩ : BufTy).Contents (Elt Ideal))
    (a : Fin 8) (b : Fin 2048) (n : Fin 4096) :
    val_main_v14 (F := Ideal) x0 x1 x2 x3 x4 x5 (ix3 a b n)
      = (∑ k : Fin 4096, x0 (ix3 a b k) * val_main_v10 (F := Ideal) x1 x2 x3 x4 (ix2 k n)) + x5 (ix1 n) := by
  rw [val_main_v14_apply, val_main_v11_apply, val_main_v13_apply, val_main_v12_apply]
  have el : ∀ k, lidx_main_v11 (ix3 a b n) k = ix3 a b k := fun k => funext fun d => by
    match d with
    | ⟨0, _⟩ => rfl
    | ⟨1, _⟩ => rfl
    | ⟨2, _⟩ => rfl
  have er : ∀ k, ridx_main_v11 (ix3 a b n) k = ix2 k n := fun k => funext fun d => by
    match d with
    | ⟨0, _⟩ => rfl
    | ⟨1, _⟩ => rfl
  have eb : idx_main_v12 (idx_main_v13 (ix3 a b n)) = ix1 n := funext fun d => by
    match d with
    | ⟨0, _⟩ => rfl
  simp only [el, er, eb]
  rfl

end Cert.ReferenceIdeal.RefValue

end
-- ==== Proof.lean ====
/-
  The certificate of a quaternion ("Hamilton product") linear layer: out = x @ W + bias, where W is the 4096 x 4096
  block matrix assembled from four 1024 x 1024 parameter blocks r, i, j, k with the sign pattern of the Hamilton
  product, and x is 8 x 2048 x 4096.

  The kernel flattens x to 16384 x 4096 and tiles the product 16 x 4 x 8: for each 1024 x 1024 output block it walks
  the contraction axis in 8 steps of 512, accumulating in a scratch block that it zeroes at the first step, and at the
  last step writes accumulator + bias row. The reference contracts all 4096 terms at once and adds the bias.

  * The three frames. The word-level kernel and its idealization are one text read at two float instances; their frame
    (every weakly fair execution terminates, nothing faults, the arguments end as launched) is proved once for any
    instance: the body at a grid point is one of three Hoare triples chosen by k, the region invariant carries the
    accumulator's contents from point to point, and the host lines around the region write none of the arguments.
    The reference has no kernel; its frame is its run with the result dropped.
  * Nothing was rewritten in idealizing the kernel, so that conjunct asks nothing.
  * Equal results on the extended reals. After step k the accumulator holds the first (k + 1) * 512 terms of the
    contraction (a sum over a range of numbers splits into a prefix and the next block: associativity of addition in
    a commutative monoid, which holds on the extended reals without any finiteness); after the eighth step that is
    the reference's sum. Both programs assemble W by the same host lines, so W is one opaque function of the blocks on
    both sides; the two reshapes of x and of the result are the same row-major correspondence. The precondition is
    never opened.
-/
import proofs.«164658_j64347200028815_1_alg».proof.Defs
import proofs.«164658_j64347200028815_1_alg».proof.Proof.Gen.Kernel
import proofs.«164658_j64347200028815_1_alg».proof.Proof.Gen.KernelIdeal
import proofs.«164658_j64347200028815_1_alg».proof.Proof.Gen.ReferenceIdeal
import proofs.«164658_j64347200028815_1_alg».proof.Proof.Gen.Pre_finite_inputs
import proofs.«164658_j64347200028815_1_alg».proof.Proof.Kernel.Frame
import proofs.«164658_j64347200028815_1_alg».proof.Proof.KernelIdeal.Result
import proofs.«164658_j64347200028815_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_r : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' block matrices are one function of the four parameter blocks. -/
theorem W_same (x1 x2 x3 x4 : (⟨Cert.KernelIdeal.S1024x1024, .f32⟩ : BufTy).Contents (Elt Ideal)) :
    Cert.KernelIdeal.Val.Wof (F := Ideal) x1 x2 x3 x4 = Cert.ReferenceIdeal.Read.val_main_v10 (F := Ideal) x1 x2 x3 x4 := rfl

/-- From memories that agree on the arguments the two idealized programs end with equal results: at every index
    (a, b, col) both are (sum over n < 4096 of x(a, b, n) * W(n, col)) + bias(col). -/
theorem algebraic : Cert.algebraic_KernelIdeal_ReferenceIdeal := by
  intro m ρ m' ρ' _ hagree
  refine ⟨fun c => shapeCast Cert.KernelIdeal.S8x2048x4096 (Cert.KernelIdeal.Val.Gout m c)
    Cert.KernelIdeal.Facts₀.shapeCasts_S16384x4096_S8x2048x4096, Cert.KernelIdeal.Val.run_value m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5⟩ := hagree c
  rw [(h c).1, Cert.ReferenceIdeal.Read.val_main_v14_eq, h0, h1, h2, h3, h4, h5]
  funext i
  obtain ⟨a, b, n, rfl⟩ : ∃ (a : Fin 8) (b : Fin 2048) (n : Fin 4096), i = ix3 a b n := ⟨i 0, i 1, i 2, eq_ix3 i⟩
  show Cert.ReferenceIdeal.Read.val_main_v14 (F := Ideal) _ _ _ _ _ _ (ix3 a b n)
    = shapeCast Cert.KernelIdeal.S8x2048x4096 (Cert.KernelIdeal.Val.Gout m c)
        Cert.KernelIdeal.Facts₀.shapeCasts_S16384x4096_S8x2048x4096 (ix3 a b n)
  rw [Cert.ReferenceIdeal.RefValue.result_apply, Cert.KernelIdeal.Val.result_apply]
  simp only [Cert.KernelIdeal.Val.Wmat, Cert.KernelIdeal.Val.xArg, Cert.KernelIdeal.Val.rArg, Cert.KernelIdeal.Val.iArg,
    Cert.KernelIdeal.Val.jArg, Cert.KernelIdeal.Val.kArg, Cert.KernelIdeal.Val.biasArg, W_same]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
